-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S100000x2048 : Shape := ⟨2, ![100000, 2048]⟩
abbrev S100000 : Shape := ⟨1, ![100000]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S100000x2048 : S_.BroadcastsInDim S100000x2048 (![] : Fin 0 → Fin S100000x2048.rank)
  reducesTo_S100000x2048_S_d0_1 : S100000x2048.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S64x2048 .f32) (main_arg1 : FVec F S100000x2048 .f32) (main_arg2 : FVec F S100000 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S100000x2048 .f32 := Host.absf main_arg1
  let main_cst_0 : FVec F S_ .f32 := constant S_ .f32 0x7F800000#32
  let main_v5 : FVec F S100000x2048 .f32 := broadcastInDim S100000x2048 ![] bcast_S_S100000x2048 main_cst_0
  let main_v6 : IVec S100000x2048 1 := cmpf .olt main_v4 main_v5
  let main_c_1 : IVec S_ 1 := constantI S_ 1 1#1
  let main_v7 : IVec S_ 1 := (fun x v => Host.reduce IntOp.andi x v reducesTo_S100000x2048_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S64x2048 : Shape := ⟨2, ![64, 2048]⟩
abbrev S100000x2048 : Shape := ⟨2, ![100000, 2048]⟩
abbrev S100000 : Shape := ⟨1, ![100000]⟩
abbrev S_ : Shape := ⟨0, ![]⟩
abbrev S100352 : Shape := ⟨1, ![100352]⟩
abbrev S1x100352 : Shape := ⟨2, ![1, 100352]⟩
abbrev S64x100000 : Shape := ⟨2, ![64, 100000]⟩
abbrev S2048x2048 : Shape := ⟨2, ![2048, 2048]⟩
abbrev S1x2048 : Shape := ⟨2, ![1, 2048]⟩

abbrev nBuf : Space → Nat
  | .hbm => 8
  | .vmem => 6
  | .smem => 0
  | _ => 0

abbrev bufTy : (tb : Table) → Fin (tcTables nBuf tb) → BufTy
  | .hbm, ⟨0, _⟩ => ⟨S64x2048, .f32⟩
  | .hbm, ⟨1, _⟩ => ⟨S100000x2048, .f32⟩
  | .hbm, ⟨2, _⟩ => ⟨S100000, .f32⟩
  | .hbm, ⟨3, _⟩ => ⟨S_, .i32⟩
  | .hbm, ⟨4, _⟩ => ⟨S_, .f32⟩
  | .hbm, ⟨5, _⟩ => ⟨S100352, .f32⟩
  | .hbm, ⟨6, _⟩ => ⟨S1x100352, .f32⟩
  | .hbm, ⟨7, _⟩ => ⟨S64x100000, .f32⟩
  | .local _ .vmem, ⟨0, _⟩ => ⟨S64x2048, .f32⟩
  | .local _ .vmem, ⟨1, _⟩ => ⟨S2048x2048, .f32⟩
  | .local _ .vmem, ⟨2, _⟩ => ⟨S2048x2048, .f32⟩
  | .local _ .vmem, ⟨3, _⟩ => ⟨S1x100352, .f32⟩
  | .local _ .vmem, ⟨4, _⟩ => ⟨S64x2048, .f32⟩
  | .local _ .vmem, ⟨5, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![49], ![false]⟩

def k0_off1 (i : grid0.Coords) : Fin 2 → Nat :=
  let c0_3 : Index := 0#32
  let arg0 : BitVec 32 := BitVec.ofNat 32 (i 0).val
  let c2048_i32 : BitVec 32 := 2048#32
  let v3 : BitVec 32 := Scalar.muli arg0 c2048_i32
  let v4 : Index := Scalar.indexCast v3
  ![0, v4.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x100352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S100000_S100352_03520 : S100000.Pads (![0] : Fin 1 → Nat) ![352] ![0] S100352
  h_S_ : 0 < S_.numel
  shapeCasts_S100352_S1x100352 : S100352.ShapeCasts S1x100352
  inb_S64x2048_S64x2048_0_0 : ∀ a, (![0, 0] : Fin 2 → Nat) a + S64x2048.size a ≤ S64x2048.size a
  h_S64x2048 : 0 < S64x2048.numel
  inb_S2048x2048_S2048x2048_0_0 : ∀ a, (![0, 0] : Fin 2 → Nat) a + S2048x2048.size a ≤ S2048x2048.size a
  h_S2048x2048 : 0 < S2048x2048.numel
  h_S1x2048 : 0 < S1x2048.numel
  shapeCasts_S1x2048_S1x2048 : S1x2048.ShapeCasts S1x2048
  broadcasts_S1x2048_S64x2048 : S1x2048.Broadcasts S64x2048
  dot_S64x2048_S2048x2048_S64x2048_1_1_0_0_n_n_wf : DotDims.WF S64x2048 S2048x2048 S64x2048 [1] [1] [0] [0] [] []
  hrank0 : 0 < grid0.rank
  k0_off1_inb : ∀ i : grid0.Coords, ∀ a, (k0_off1 i) a + S1x2048.size a ≤ S1x100352.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x2048.size a
  hwx0_0 : ∀ i : grid0.Coords, EltTy.bits .f32 = 32 ∨ (Rect.block (s := S64x2048) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x2048.size a < S100000x2048.size a
  hwx0_1 : ∀ i : grid0.Coords, EltTy.bits .f32 = 32 ∨ (Rect.unit (s := S100000x2048) (fun a => cc0_transform_1 i a * S2048x2048.size a) (fun a => (Pipeline.Clip.of (cc0_transform_1 i a) (S2048x2048.size a) (S100000x2048.size a)).extent (S2048x2048.size a)) fun a => Pipeline.Clip.inb (Pipeline.Clip.ok_of (hstart0_1 i a))).WholeWords (EltTy.packing .f32)
  hwxs0_1 : ∀ i : grid0.Coords, EltTy.bits .f32 = 32 ∨ (Rect.unit (s := S2048x2048) (fun _ => 0) (fun a => (Pipeline.Clip.of (cc0_transform_1 i a) (S2048x2048.size a) (S100000x2048.size a)).extent (S2048x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100352.size a ≤ S1x100352.size a
  hwx0_2 : ∀ i : grid0.Coords, EltTy.bits .f32 = 32 ∨ (Rect.block (s := S1x100352) S1x100352.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S64x2048.size a < S64x100000.size a
  hwx0_3 : ∀ i : grid0.Coords, EltTy.bits .f32 = 32 ∨ (Rect.unit (s := S64x100000) (fun a => cc0_transform_3 i a * S64x2048.size a) (fun a => (Pipeline.Clip.of (cc0_transform_3 i a) (S64x2048.size a) (S64x100000.size a)).extent (S64x2048.size a)) fun a => Pipeline.Clip.inb (Pipeline.Clip.ok_of (hstart0_3 i a))).WholeWords (EltTy.packing .f32)
  hwxs0_3 : ∀ i : grid0.Coords, EltTy.bits .f32 = 32 ∨ (Rect.unit (s := S64x2048) (fun _ => 0) (fun a => (Pipeline.Clip.of (cc0_transform_3 i a) (S64x2048.size a) (S64x100000.size a)).extent (S64x2048.size a)) fun a => (Nat.zero_add _).trans_le (Pipeline.Clip.extent_le (Pipeline.Clip.ok_of (hstart0_3 i a)))).WholeWords (EltTy.packing .f32)

variable [Facts₀]

def dot_S64x2048_S2048x2048_S64x2048_1_1_0_0_n_n : DotDims S64x2048 S2048x2048 S64x2048 where
  lhsContracting := [1]
  rhsContracting := [1]
  lhsNonContracting := [0]
  rhsNonContracting := [0]
  lhsBatch := []
  rhsBatch := []
  wf := dot_S64x2048_S2048x2048_S64x2048_1_1_0_0_n_n_wf

abbrev win0_0 : Pipeline.Window sig grid0 :=
  Pipeline.Window.ofSpec (Memref.whole main_arg0) S64x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S1x100352.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v2) S64x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048 : Shape := ⟨2, ![64, 2048]⟩
abbrev S100000x2048 : Shape := ⟨2, ![100000, 2048]⟩
abbrev S100000 : Shape := ⟨1, ![100000]⟩
abbrev S2048x100000 : Shape := ⟨2, ![2048, 100000]⟩
abbrev S64x100000 : Shape := ⟨2, ![64, 100000]⟩
abbrev S1x100000 : Shape := ⟨2, ![1, 100000]⟩

abbrev nBuf : Space → Nat
  | .hbm => 8
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S100000x2048, .f32⟩
  | .hbm, ⟨2, _⟩ => ⟨S100000, .f32⟩
  | .hbm, ⟨3, _⟩ => ⟨S2048x100000, .f32⟩
  | .hbm, ⟨4, _⟩ => ⟨S64x100000, .f32⟩
  | .hbm, ⟨5, _⟩ => ⟨S1x100000, .f32⟩
  | .hbm, ⟨6, _⟩ => ⟨S64x100000, .f32⟩
  | .hbm, ⟨7, _⟩ => ⟨S64x100000, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S100000x2048_S2048x100000_1_0 : S100000x2048.Transposes [1, 0] S2048x100000
  bcast_S100000_S1x100000_1 : S100000.BroadcastsInDim S1x100000 (![1] : Fin 1 → Fin S1x100000.rank)
  bcast_S1x100000_S64x100000_0_1 : S1x100000.BroadcastsInDim S64x100000 (![0, 1] : Fin 2 → Fin S64x100000.rank)
  dot_S64x2048_S2048x100000_S64x100000_1_0_0_1_n_n_wf : DotDims.WF S64x2048 S2048x100000 S64x100000 [1] [0] [0] [1] [] []

variable [Facts₀]

def dot_S64x2048_S2048x100000_S64x100000_1_0_0_1_n_n : DotDims S64x2048 S2048x100000 S64x100000 where
  lhsContracting := [1]
  rhsContracting := [0]
  lhsNonContracting := [0]
  rhsNonContracting := [1]
  lhsBatch := []
  rhsBatch := []
  wf := dot_S64x2048_S2048x100000_S64x100000_1_0_0_1_n_n_wf

class Facts : Prop extends Facts₀ where

variable [Facts]
-- ==== Proof.TileBodyWords.lean ====
/-
  One vocabulary tile of the projection, as a step on four staging buffers.

  At grid point `i` the body reads the whole activations buffer `x` (64 × 2048), the whole weight-tile buffer
  `w` (2048 × 2048: 2048 vocabulary rows, each of 2048 features), the 2048 bias entries that start at column
  `2048 · i` of the padded bias row `b` (1 × 100352), and writes the whole output-tile buffer with
  `x · wᵀ + bias` (the bias row copied to each of the 64 rows). Nothing else is touched: the three input buffers
  keep their contents. The statement is for any float interpretation, any contents of the four buffers, and any
  whole buffers of these shapes, so it serves every grid point and every choice of staging slot.
-/
import proofs.«111765_g34668976013719_cont_8to1_b_1141_12_alg».proof.Proof.Gen.Kernel.Frame
import proofs.«111765_g34668976013719_cont_8to1_b_1141_12_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The bias columns tile `i` reads: 2048 entries of the padded bias row from column `2048 · i`. -/
abbrev biasCols (i : grid0.Coords) : Rect S1x100352 := Rect.unit (s := S1x100352) (k0_off1 i) S1x2048.size (k0_off1_inb i)

/-- What the output-tile buffer holds after the body at point `i`, from the contents `x`, `w`, `b` of the three
    input buffers: `x · wᵀ` plus the bias columns of the tile, row by row. -/
def tileOut (i : grid0.Coords) (x : Vec F S64x2048 .f32) (w : Vec F S2048x2048 .f32) (b : Vec F S1x100352 .f32) : Vec F S64x2048 .f32 :=
  k0_pay1 x w (View.ld b (biasCols i))

set_option maxHeartbeats 1000000 in
/-- The body on whole staging memrefs: the inputs' at contents `x`, `w`, `b` and the output's at anything run to the
    inputs' as they were and the output's at `tileOut i x w b`. -/
theorem sound_tile (c : Dev nD) (E : Set ℕ) (i : grid0.Coords)
    (arg1 : Memref sig .tc .vmem S64x2048 .f32) (harg1 : arg1.IsWhole) (arg2 : Memref sig .tc .vmem S2048x2048 .f32) (harg2 : arg2.IsWhole)
    (arg3 : Memref sig .tc .vmem S1x100352 .f32) (harg3 : arg3.IsWhole) (arg4 : Memref sig .tc .vmem S64x2048 .f32) (harg4 : arg4.IsWhole)
    (x : Vec F S64x2048 .f32) (w : Vec F S2048x2048 .f32) (b : Vec F S1x100352 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
              ∗ owns (c : Thread nD τ) arg4 fullShare (tileOut i x w b)) -∗ K ⟨⟩))
      ⊢ wp frame (wpE (defs₀ (F := F)) Variants.none c none) E (cc0__proj_kernel i arg1 harg1 arg2 harg2 arg3 harg3 arg4 harg4) K := by
  have hz : (![0, 0] : Fin 2 → Nat) = fun _ => 0 := funext fun a => by fin_cases a <;> rfl
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold tileOut
  rw [View.read_writes_eq_canon _ _ _ (fun y => View.cover_of_tiled [⟨_, _⟩] S64x2048.size (by rfl) y)]
  rw [View.canon_unit_zero hz]
  simp only [View.readAt_eq_ld, View.ld_unit_zero (S := S64x2048) hz, View.ld_unit_zero (S := S2048x2048) hz]

end Cert.Kernel.Tile

end
-- ==== Proof.TileFrame.lean ====
/-
  The word-level program runs to the end, faults nowhere and leaves its three arguments as they were.

  For this no buffer's contents need a name. The tile body reads and writes whole staging buffers at offsets that
  depend on the grid point alone (the bias columns start at `2048 · i`, inside the padded row for each of the 49
  points), never on a loaded word: it runs from any contents of its four buffers and leaves some contents in each.
  So the proof data relate what a buffer held to what it holds by the relation that always holds. The activations
  and the weights are input windows, which the pipeline never writes, and the bias is not a window's array at all:
  each ends as the region found it, and no host operation before the region writes an argument.
  That the last weight tile's staging rows past the array's end hold words nothing names, and that the matrix
  product at the word level is a function of the whole tile, therefore does not enter.
-/
import proofs.«111765_g34668976013719_cont_8to1_b_1141_12_alg».proof.Proof.TileBodyWords
import Idealize.ShloMosaic.Lib.Pipeline.Frame
import Idealize.ShloMosaic.Lib.Pipeline.Kit

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Proof data that name no staging contents: the arrays as the region finds them; of each window's buffer, after the
    body, nothing; the class's invariant; nothing owed; full shares. -/
def anyContents (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point, from any contents of the four current buffers, the body runs and hands the four back. -/
theorem body_runs (c : Dev nD) : (anyContents m c).BodyObligation (defs₀ (F := F)) Variants.none () Set.univ := fun t Y _ => by
  rw [bigSep_W0, bigSep_W0]
  show iprop((anyContents m c).Φ t.castSucc ∗ (anyContents m c).owesAt () t.castSucc
      ∗ owns (c : Thread nD τ) (st0_0 t) fullShare (Y 0) ∗ owns (c : Thread nD τ) (st0_1 t) fullShare (Y 1)
      ∗ owns (c : Thread nD τ) (st0_2 t) fullShare (Y 2) ∗ owns (c : Thread nD τ) (st0_3 t) fullShare (Y 3))
    ⊢ wp frame (wpE (defs₀ (F := F)) Variants.none c none) Set.univ (bodyAt0 t) _
  rw [show (anyContents m c).Φ t.succ = (anyContents m c).Φ t.castSucc from rfl,
    show (anyContents m c).owesAt () t.succ = (anyContents m c).owesAt () t.castSucc from rfl]
  iintro ⟨HΦ, Ho, H0, H1, H2, H3⟩
  iapply (sound_tile c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (tileOut (grid0.coords t) (Y 0) (Y 1) (Y 2)); isplitr; · ipureintro; trivial
    iexact H3

set_option backward.isDefEq.respectTransparency.types false in
/-- Every weakly fair execution of @main terminates; each windowed array ends at contents the relations allow, every
    other unscoped buffer as the region found it. -/
theorem run_any : θ_run defs (onTc (τ := τ) (main (F := F))) (s₀ m ρ) (RDat.FramePost cfg0 (anyContents m) (V m)) :=
  RDat.θ_run_frame cfgs (0 : Fin 1) launch0 defs₀ Variants.none (anyContents m) m ρ main
    (hbody := body_runs m) (hshare := fun c => (anyContents m c).share_full fun _ => rfl)
    (howed := fun _ _ => rfl) (V := V m) (hmain := hmain m Variants.none) (hA := fun _ _ => rfl) (hΦ := fun _ _ => rfl)

/-- The frame: an input window's array is never written, so it ends at its entry contents whatever the relations
    say; the bias array is no window's; and the region found all three as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun ((anyContents m c).ArrAt_in 0 rfl _) _) ((h c).1 0)).trans (V_main_arg0 m c),
     (Eq.mp (congrFun ((anyContents m c).ArrAt_in 1 rfl _) _) ((h c).1 1)).trans (V_main_arg1 m c),
     ((h c).2 main_arg2 (Pipeline.mem_restRefs_of main_arg2 (by decide) (by decide))).trans (V_main_arg2 m c)⟩) (run_any m ρ)

end Cert.Kernel.Tile

end
-- ==== Proof.TileBody.lean ====
/-
  One vocabulary tile of the projection, as a step on four staging buffers.

  At grid point `i` the body reads the whole activations buffer `x` (64 × 2048), the whole weight-tile buffer
  `w` (2048 × 2048: 2048 vocabulary rows, each of 2048 features), the 2048 bias entries that start at column
  `2048 · i` of the padded bias row `b` (1 × 100352), and writes the whole output-tile buffer with
  `x · wᵀ + bias` (the bias row copied to each of the 64 rows). Nothing else is touched: the three input buffers
  keep their contents. The statement is for any float interpretation, any contents of the four buffers, and any
  whole buffers of these shapes, so it serves every grid point and every choice of staging slot.
-/
import proofs.«111765_g34668976013719_cont_8to1_b_1141_12_alg».proof.Proof.Gen.KernelIdeal.Frame
import proofs.«111765_g34668976013719_cont_8to1_b_1141_12_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The bias columns tile `i` reads: 2048 entries of the padded bias row from column `2048 · i`. -/
abbrev biasCols (i : grid0.Coords) : Rect S1x100352 := Rect.unit (s := S1x100352) (k0_off1 i) S1x2048.size (k0_off1_inb i)

/-- What the output-tile buffer holds after the body at point `i`, from the contents `x`, `w`, `b` of the three
    input buffers: `x · wᵀ` plus the bias columns of the tile, row by row. -/
def tileOut (i : grid0.Coords) (x : Vec F S64x2048 .f32) (w : Vec F S2048x2048 .f32) (b : Vec F S1x100352 .f32) : Vec F S64x2048 .f32 :=
  k0_pay1 x w (View.ld b (biasCols i))

set_option maxHeartbeats 1000000 in
/-- The body on whole staging memrefs: the inputs' at contents `x`, `w`, `b` and the output's at anything run to the
    inputs' as they were and the output's at `tileOut i x w b`. -/
theorem sound_tile (c : Dev nD) (E : Set ℕ) (i : grid0.Coords)
    (arg1 : Memref sig .tc .vmem S64x2048 .f32) (harg1 : arg1.IsWhole) (arg2 : Memref sig .tc .vmem S2048x2048 .f32) (harg2 : arg2.IsWhole)
    (arg3 : Memref sig .tc .vmem S1x100352 .f32) (harg3 : arg3.IsWhole) (arg4 : Memref sig .tc .vmem S64x2048 .f32) (harg4 : arg4.IsWhole)
    (x : Vec F S64x2048 .f32) (w : Vec F S2048x2048 .f32) (b : Vec F S1x100352 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
              ∗ owns (c : Thread nD τ) arg4 fullShare (tileOut i x w b)) -∗ K ⟨⟩))
      ⊢ wp frame (wpE (defs₀ (F := F)) Variants.none c none) E (cc0__proj_kernel i arg1 harg1 arg2 harg2 arg3 harg3 arg4 harg4) K := by
  have hz : (![0, 0] : Fin 2 → Nat) = fun _ => 0 := funext fun a => by fin_cases a <;> rfl
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold tileOut
  rw [View.read_writes_eq_canon _ _ _ (fun y => View.cover_of_tiled [⟨_, _⟩] S64x2048.size (by rfl) y)]
  rw [View.canon_unit_zero hz]
  simp only [View.readAt_eq_ld, View.ld_unit_zero (S := S64x2048) hz, View.ld_unit_zero (S := S2048x2048) hz]

end Cert.KernelIdeal.Tile

end
-- ==== Proof.TileValue.lean ====
/-
  One vocabulary tile, read at an index.

  Over the extended reals the matrix unit's product into a zero accumulator is the plain sum: entry (r, j) of the
  output tile is ∑ₖ x[r, k] · w[j, k] — row r of the activations against row j of the weight tile (both operands
  are contracted on their feature axis) — plus the bias entry the tile's j-th column reads, entry
  `2048 · i + j` of the padded bias row (the row is copied unchanged to each of the 64 output rows).
  In particular column j of the output depends on the weight tile through its row j only.
-/
import proofs.«111765_g34668976013719_cont_8to1_b_1141_12_alg».proof.Proof.TileBody
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen
open Idealize.ShloMosaic Idealize.ShloMosaic.ValueIdx

/-! ### The product's operand indices: at output (r, j) and feature k, (r, k) of the activations and (j, k) of the tile -/

theorem lhs_tile_0 (p : S64x2048.Idx) (q : dot_S64x2048_S2048x2048_S64x2048_1_1_0_0_n_n.contr.Idx) :
    (dot_S64x2048_S2048x2048_S64x2048_1_1_0_0_n_n.lhsIdx p q 0).val = (p 0).val := by
  unfold DotDims.lhsIdx
  rw [dif_neg (show ¬(0 : Fin S64x2048.rank) ∈ dot_S64x2048_S2048x2048_S64x2048_1_1_0_0_n_n.lhsBatch by decide), dif_pos (show (0 : Fin S64x2048.rank) ∈ dot_S64x2048_S2048x2048_S64x2048_1_1_0_0_n_n.lhsNonContracting by decide)]
  rfl
theorem lhs_tile_1 (p : S64x2048.Idx) (q : dot_S64x2048_S2048x2048_S64x2048_1_1_0_0_n_n.contr.Idx) :
    (dot_S64x2048_S2048x2048_S64x2048_1_1_0_0_n_n.lhsIdx p q 1).val = (q ⟨0, by decide⟩).val :=
  dot_S64x2048_S2048x2048_S64x2048_1_1_0_0_n_n.lhsIdx_val_of_single rfl p q
theorem rhs_tile_0 (p : S64x2048.Idx) (q : dot_S64x2048_S2048x2048_S64x2048_1_1_0_0_n_n.contr.Idx) :
    (dot_S64x2048_S2048x2048_S64x2048_1_1_0_0_n_n.rhsIdx p q 0).val = (p 1).val := by
  unfold DotDims.rhsIdx
  rw [dif_neg (show ¬(0 : Fin S2048x2048.rank) ∈ dot_S64x2048_S2048x2048_S64x2048_1_1_0_0_n_n.rhsBatch by decide), dif_pos (show (0 : Fin S2048x2048.rank) ∈ dot_S64x2048_S2048x2048_S64x2048_1_1_0_0_n_n.rhsNonContracting by decide)]
  rfl
theorem rhs_tile_1 (p : S64x2048.Idx) (q : dot_S64x2048_S2048x2048_S64x2048_1_1_0_0_n_n.contr.Idx) :
    (dot_S64x2048_S2048x2048_S64x2048_1_1_0_0_n_n.rhsIdx p q 1).val = (q ⟨0, by decide⟩).val :=
  dot_S64x2048_S2048x2048_S64x2048_1_1_0_0_n_n.rhsIdx_val_of_single rfl p q

/-- The product into the zero accumulator, at (r, j): row r of `x` against row j of `w`. -/
theorem product_apply (x : FVec Ideal S64x2048 .f32) (w : FVec Ideal S2048x2048 .f32) (r : Fin 64) (j : Fin 2048) :
    FloatOps.matmul dot_S64x2048_S2048x2048_S64x2048_1_1_0_0_n_n none x w (constant (F := Ideal) S64x2048 .f32 0x00000000#32) (ix2 r j)
      = ∑ k : Fin 2048, x (ix2 r k) * w (ix2 j k) := by
  rw [Ideal.matmul_constant_zero_apply, ← Equiv.sum_comp (contrEquiv1 dot_S64x2048_S2048x2048_S64x2048_1_1_0_0_n_n 2048 rfl rfl).symm]
  refine Finset.sum_congr rfl fun k _ => ?_
  have hk := contrEquiv1_symm_val dot_S64x2048_S2048x2048_S64x2048_1_1_0_0_n_n 2048 rfl rfl k
  have el : dot_S64x2048_S2048x2048_S64x2048_1_1_0_0_n_n.lhsIdx (ix2 r j) ((contrEquiv1 dot_S64x2048_S2048x2048_S64x2048_1_1_0_0_n_n 2048 rfl rfl).symm k) = ix2 r k := funext fun a => Fin.ext (by
    match a with
    | ⟨0, _⟩ => exact lhs_tile_0 _ _
    | ⟨1, _⟩ => exact (lhs_tile_1 _ _).trans hk)
  have er : dot_S64x2048_S2048x2048_S64x2048_1_1_0_0_n_n.rhsIdx (ix2 r j) ((contrEquiv1 dot_S64x2048_S2048x2048_S64x2048_1_1_0_0_n_n 2048 rfl rfl).symm k) = ix2 j k := funext fun a => Fin.ext (by
    match a with
    | ⟨0, _⟩ => exact rhs_tile_0 _ _
    | ⟨1, _⟩ => exact (rhs_tile_1 _ _).trans hk)
  rw [el, er]

/-- The bias row of 2048 entries copied to the 64 rows, at (r, j): its entry j. -/
theorem biasRows_apply (v : FVec Ideal S1x2048 .f32) (r : Fin 64) (j : Fin 2048) :
    broadcastTo S64x2048 (shapeCast S1x2048 v Facts₀.shapeCasts_S1x2048_S1x2048) Facts₀.broadcasts_S1x2048_S64x2048 (ix2 r j)
      = v (ix2 (0 : Fin 1) j) := by
  rw [shapeCast_self]
  exact broadcastTo_apply v Facts₀.broadcasts_S1x2048_S64x2048 (ix2 r j) (ix2 (0 : Fin 1) j) (fun a => match a with
    | ⟨0, _⟩ => by show 0 = if (1 : Nat) = 1 then 0 else _; rw [if_pos rfl]
    | ⟨1, _⟩ => by show j.val = if (2048 : Nat) = 1 then 0 else j.val; rw [if_neg (by decide)])

/-- The output tile at (r, j). -/
theorem tileOut_apply (i : grid0.Coords) (x : Vec Ideal S64x2048 .f32) (w : Vec Ideal S2048x2048 .f32) (b : Vec Ideal S1x100352 .f32)
    (r : Fin 64) (j : Fin 2048) :
    tileOut (F := Ideal) i x w b (ix2 r j)
      = (∑ k : Fin 2048, x (ix2 r k) * w (ix2 j k)) + b ((biasCols i).idx (ix2 (0 : Fin 1) j)) := by
  unfold tileOut k0_pay1
  refine (addf_apply _ _ (ix2 r j)).trans ?_
  simp only [matmul]
  rw [product_apply, biasRows_apply]

/-- Two weight tiles with the same row j give the same column j. -/
theorem tileOut_congr_row (i : grid0.Coords) (x : Vec Ideal S64x2048 .f32) (w w' : Vec Ideal S2048x2048 .f32) (b : Vec Ideal S1x100352 .f32)
    (r : Fin 64) (j : Fin 2048) (h : ∀ k : Fin 2048, w (ix2 j k) = w' (ix2 j k)) :
    tileOut (F := Ideal) i x w b (ix2 r j) = tileOut (F := Ideal) i x w' b (ix2 r j) := by
  rw [tileOut_apply, tileOut_apply]
  exact congrArg (· + _) (Finset.sum_congr rfl fun k _ => by rw [h k])

end Cert.KernelIdeal.Tile

end
-- ==== Proof.TileRun.lean ====
/-
  The idealized program's run, with every buffer named.

  The proof data name what each staging buffer holds after the body at point `t`: the activations and the padded bias
  row their (one, whole) blocks; the weight tile its 2048 rows — at the last point only 1696 of them lie inside the
  array, and the rows past its end hold whatever the fetch left there: the data fill them with zeros, and the
  obligation, the window being one whose last block is cut, asks for the rows inside the array only —; the output tile
  `x · wᵀ + bias` of those. The output's last block is cut in the same place (columns 98304 … 99999 of 100000), and its
  kept columns are functions of the weight rows inside the array alone (column j reads row j), so whatever the rows past
  the end hold, the body leaves in the kept columns what the data name.
-/
import proofs.«111765_g34668976013719_cont_8to1_b_1141_12_alg».proof.Proof.TileValue
import Idealize.ShloMosaic.Lib.Pipeline.Frame
import Idealize.ShloMosaic.Lib.Pipeline.Kit

set_option maxRecDepth 16384

noncomputable section

namespace Cert.KernelIdeal.Tile

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The weight tile of point `t` as its staging buffer holds it once fetched: the tile's rows inside the array, and
    `d` on the rows past the array's end (none but at the last point). -/
def wtile (c : Dev nD) (t : Fin cfg0.N) (d : Vec Ideal S2048x2048 .f32) : Vec Ideal S2048x2048 .f32 :=
  win0_1.fill (grid0.coords t) d (iblk m c 1 t)

/-- The filler the data use for the rows past the end. -/
def zeroTile : Vec Ideal S2048x2048 .f32 := fun _ => 0

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wtile m c t zeroTile
    | ⟨2, _⟩ => iblk m c 2 t
    | ⟨3, _⟩ => tileOut (grid0.coords t) (iblk m c 0 t) (wtile m c t zeroTile) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = wtile m c t zeroTile := by dsimp only [dats]
theorem after_b (c : Dev nD) (t : Fin cfg0.N) : (dats m 0 c).after 2 t = iblk m c 2 t := by dsimp only [dats]
theorem after_o (c : Dev nD) (t : Fin cfg0.N) :
    (dats m 0 c).after 3 t = tileOut (grid0.coords t) (iblk m c 0 t) (wtile m c t zeroTile) (iblk m c 2 t) := by dsimp only [dats]

/-! ### What the body finds -/

theorem before_x (c : Dev nD) (t : Fin cfg0.N) (d) : (dats m 0 c).before 0 t d = iblk m c 0 t :=
  before0_0_of m (dats m 0 c) (A_eq m c 0) (after_x m c) t d
theorem before_b (c : Dev nD) (t : Fin cfg0.N) (d) : (dats m 0 c).before 2 t d = iblk m c 2 t :=
  before0_2_of m (dats m 0 c) (A_eq m c 2) (after_b m c) t d
/-- The weight tile is fetched at every point: its rows inside the array, anything past them. -/
theorem before_w (c : Dev nD) (t : Fin cfg0.N) (d) : (dats m 0 c).before 1 t d = wtile m c t d := by
  unfold Dat.before; rw [if_pos (fetch0_1 t)]; unfold Dat.fetched Dat.blockOf; rw [A_eq]; rfl
/-- The output is never fetched and is written back at every point: its buffer comes to the body at anything. -/
theorem fetch_o : ∀ t : Fin cfg0.N, (cfg0.win 3).fetch t = false :=
  (by decide +kernel : ∀ t : Fin grid0.N, win0_3.fetch t = false)
theorem before_o (c : Dev nD) (t : Fin cfg0.N) (d) : (dats m 0 c).before 3 t d = d := by
  unfold Dat.before
  rw [if_neg (by rw [fetch_o t]; exact Bool.false_ne_true)]
  by_cases h0 : t.val = 0
  · rw [if_pos h0]
  · rw [if_neg h0]; exact if_pos (flush0_3 _)

/-! ### The kept columns of the output tile do not read the rows past the array's end -/

/-- The weight window and the output window are cut alike: as many weight rows as output columns are kept, and a kept
    weight row is kept whole. -/
theorem cuts_agree : ∀ t : Fin cfg0.N, win0_3.xsize (grid0.coords t) 1 = win0_1.xsize (grid0.coords t) 0
    ∧ win0_1.xsize (grid0.coords t) 1 = 2048 ∧ win0_3.xsize (grid0.coords t) 0 = 64 :=
  (by decide +kernel : ∀ t : Fin grid0.N, win0_3.xsize (grid0.coords t) 1 = win0_1.xsize (grid0.coords t) 0
    ∧ win0_1.xsize (grid0.coords t) 1 = 2048 ∧ win0_3.xsize (grid0.coords t) 0 = 64)

/-- Where the transfer moves an entry of the block, the filled block does not depend on the filler (for any window). -/
theorem fill_indep {G : Pipeline.Grid} (w : Window sig G) {α : Type} (i : G.Coords) (d d' : w.block.Idx → α)
    (g : (w.xblock i).Idx → α) (p : w.block.Idx) (h : ∀ a, (p a).val < w.xsize i a) : w.fill i d g p = w.fill i d' g p := by
  have hm : w.moved i p = true := (w.moved_iff i p).mpr h
  show (if h : w.moved i p = true then _ else _) = (if h : w.moved i p = true then _ else _)
  rw [dif_pos hm, dif_pos hm]

/-- A row of the fetched tile inside the array does not depend on the filler. -/
theorem wtile_row (c : Dev nD) (t : Fin cfg0.N) (d d' : Vec Ideal S2048x2048 .f32) (j : Fin 2048)
    (hj : j.val < win0_1.xsize (grid0.coords t) 0) (k : Fin 2048) : wtile m c t d (ix2 j k) = wtile m c t d' (ix2 j k) :=
  fill_indep win0_1 (grid0.coords t) d d' (iblk m c 1 t) (ix2 j k) (fun a => match a with
    | ⟨0, _⟩ => hj
    | ⟨1, _⟩ => Nat.lt_of_lt_of_eq k.isLt (cuts_agree t).2.1.symm)

theorem kept_columns (c : Dev nD) (t : Fin cfg0.N) (d d' : Vec Ideal S2048x2048 .f32) :
    win0_3.cut (grid0.coords t) (tileOut (grid0.coords t) (iblk m c 0 t) (wtile m c t d) (iblk m c 2 t))
      = win0_3.cut (grid0.coords t) (tileOut (grid0.coords t) (iblk m c 0 t) (wtile m c t d') (iblk m c 2 t)) := by
  funext y
  have h1 : (y 1).val < win0_1.xsize (grid0.coords t) 0 := by rw [← (cuts_agree t).1]; exact (y 1).isLt
  have h0 : (y 0).val < 64 := Nat.lt_of_lt_of_le (y 0).isLt (win0_3.xsize_le (grid0.coords t) 0)
  have h1' : (y 1).val < 2048 := Nat.lt_of_lt_of_le (y 1).isLt (win0_3.xsize_le (grid0.coords t) 1)
  have e : win0_3.xinj (grid0.coords t) y = (ix2 (⟨(y 0).val, h0⟩ : Fin 64) (⟨(y 1).val, h1'⟩ : Fin 2048) : S64x2048.Idx) :=
    funext fun a => by match a with | ⟨0, _⟩ => rfl | ⟨1, _⟩ => rfl
  show tileOut _ _ _ _ (win0_3.xinj (grid0.coords t) y) = tileOut _ _ _ _ (win0_3.xinj (grid0.coords t) y)
  rw [e]
  exact tileOut_congr_row _ _ _ _ _ _ _ (fun k => wtile_row m c t d d' _ h1 k)

/-! ### The body obligation -/

theorem body_obligation (c : Dev nD) : BodyObligationLoose (dats m 0 c) (defs₀ (F := Ideal)) Variants.none () Set.univ := fun t => by
  rw [bigSep_W0, bigSep_W0]
  simp only
  show _ ⊢ wp frame (wpE (defs₀ (F := Ideal)) Variants.none c none) Set.univ (bodyAt0 (F := Ideal) t) _
  rw [show (dats m 0 c).Φ t.succ = (dats m 0 c).Φ t.castSucc from rfl,
    show (dats m 0 c).owesAt () t.succ = (dats m 0 c).owesAt () t.castSucc from rfl]
  simp only [before_x, before_w, before_b, before_o, after_x, after_w, after_b, after_o]
  iintro ⟨HΦ, Ho, ⟨%d0, H0⟩, ⟨%d1, H1⟩, ⟨%d2, H2⟩, ⟨%d3, H3⟩⟩
  iapply (sound_tile (F := Ideal) c Set.univ (grid0.coords t) _ _ _ _ _ _ _ _ (iblk m c 0 t) (wtile m c t d1) (iblk m c 2 t) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]; · iexact H0
  isplitl [H1]
  · -- the rows inside the array are the data's; past them, what the fetch left (`d1`)
    iexists d1
    have e1 : win0_1.fill (grid0.coords t) d1 (win0_1.cut (grid0.coords t) (wtile m c t zeroTile)) = wtile m c t d1 := by
      unfold wtile; rw [Window.cut_fill]
    change _ ⊢ owns (c : Thread nD τ) (stage0_1 (cfg0.slots t 1)) fullShare
      (win0_1.fill (grid0.coords t) d1 (win0_1.cut (grid0.coords t) (wtile m c t zeroTile)))
    rw [e1]
  isplitl [H2]; · iexact H2
  · -- the kept columns are the data's whatever `d1` is (`kept_columns`); past them, what the body computed from `d1`
    iexists tileOut (grid0.coords t) (iblk m c 0 t) (wtile m c t d1) (iblk m c 2 t)
    change _ ⊢ owns (c : Thread nD τ) (stage0_3 (cfg0.slots t 3)) fullShare
      (win0_3.fill (grid0.coords t) (tileOut (grid0.coords t) (iblk m c 0 t) (wtile m c t d1) (iblk m c 2 t))
        (win0_3.cut (grid0.coords t) (tileOut (grid0.coords t) (iblk m c 0 t) (wtile m c t zeroTile) (iblk m c 2 t))))
    rw [win0_3.fill_congr_cut (grid0.coords t) (kept_columns m c t d1 zeroTile)]

/-! ### The run and the frame -/

set_option backward.isDefEq.respectTransparency.types false in
/-- Every weakly fair execution of @main terminates, with each windowed array at what the library computes from the
    proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The idealized program runs to the end, faults nowhere and leaves its three arguments as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Tile

end
-- ==== Proof.Spec.lean ====
/-
  The specification: the logits of a linear head.

  For activations `x` (64 rows of 2048 features), weights `W` (100000 vocabulary rows of 2048 features) and a bias
  `b` (100000 entries), the logit of row `r` for vocabulary entry `v` is the inner product of row `r` of `x` with
  row `v` of `W`, plus `b v`:  logits[r, v] = (∑ₖ x[r, k] · W[v, k]) + b[v]  — over the extended reals, where a
  finite sum does not depend on the order of its terms.
-/
import Idealize.ShloMosaic.PureOps.Ideal
import Idealize.ShloMosaic.Lib.ValueIdx

noncomputable section

open scoped BigOperators

namespace Cert.Logits

open Idealize.ShloMosaic Idealize.ShloMosaic.ValueIdx

/-- One logit: row `r` of the activations against row `v` of the weights, plus the bias of `v`. -/
def logitAt (x : (⟨2, ![64, 2048]⟩ : Shape).Idx → EReal) (W : (⟨2, ![100000, 2048]⟩ : Shape).Idx → EReal)
    (b : (⟨1, ![100000]⟩ : Shape).Idx → EReal) (r : Fin 64) (v : Fin 100000) : EReal :=
  (∑ k : Fin 2048, x (ix2 r k) * W (ix2 v k)) + b (ix1 v)

/-- All of them, as one array of 64 × 100000. -/
def logits (x : (⟨2, ![64, 2048]⟩ : Shape).Idx → EReal) (W : (⟨2, ![100000, 2048]⟩ : Shape).Idx → EReal)
    (b : (⟨1, ![100000]⟩ : Shape).Idx → EReal) : (⟨2, ![64, 100000]⟩ : Shape).Idx → EReal :=
  fun i => logitAt x W b ⟨(i 0).val, (i 0).isLt⟩ ⟨(i 1).val, (i 1).isLt⟩

theorem logits_ix2 (x : (⟨2, ![64, 2048]⟩ : Shape).Idx → EReal) (W : (⟨2, ![100000, 2048]⟩ : Shape).Idx → EReal)
    (b : (⟨1, ![100000]⟩ : Shape).Idx → EReal) (r : Fin 64) (v : Fin 100000) :
    logits x W b (ix2 r v) = logitAt x W b r v := rfl

end Cert.Logits

end
-- ==== Proof.LogitsOfTiles.lean ====
/-
  The 49 output tiles piece together the logits.

  Point `t` writes back the kept columns of its output tile — all 2048 but at the last point, where columns
  98304 … 99999 are the array's last 1696. Entry (r, j) of that tile is ∑ₖ x[r, k] · w[j, k] + bias[2048 · t + j], where the
  activations' block is the whole array, row j of the weight tile is row `2048 · t + j` of `W` (a row inside the array,
  since column `2048 · t + j` of the output is), and the padded bias row agrees with `b` below 100000 (it is `b` followed
  by 352 zeros, reshaped to one row). So the point writes block `t` of `logits x W b`; every column lies in the block of
  point `column / 2048`; hence the result array ends holding `logits x W b`.
-/
import proofs.«111765_g34668976013719_cont_8to1_b_1141_12_alg».proof.Proof.TileRun
import proofs.«111765_g34668976013719_cont_8to1_b_1141_12_alg».proof.Proof.Spec
import Idealize.ShloMosaic.Lib.StableHlo.Run
import Idealize.ShloMosaic.Lib.KernelVsHost

set_option maxRecDepth 16384

noncomputable section

open scoped BigOperators

namespace Cert.KernelIdeal.Tile

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg)

/-! ### The padded bias row -/

/-- As the region finds it: `b`, padded behind with 352 copies of the integer zero converted, as one row. -/
theorem biasRow_eq (c : Dev nD) : (V m c main_v1 : S1x100352.Idx → EReal)
    = shapeCast S1x100352 (pad S100352 ![0] ![352] ![0] (m ((c : Thread nD τ).loc main_arg2) : S100000.Idx → EReal)
        (sitofp (F := Ideal) .f32 (constantI S_ 32 0#32)) Facts₀.pads_S100000_S100352_03520 Facts₀.h_S_) Facts₀.shapeCasts_S100352_S1x100352 := by
  dsimp only [V]
  simp only [hostOps0, hostOps0_1, hostOps0_2, List.flatten_cons, List.flatten_nil, List.append_nil, List.cons_append, List.nil_append]
  after_results
  rfl

/-- Below 100000 the padded row is `b`. -/
theorem biasRow_apply (c : Dev nD) (v : Fin 100000) (v' : Fin 100352) (hv : v'.val = v.val) :
    (V m c main_v1 : S1x100352.Idx → EReal) (ix2 (0 : Fin 1) v') = m ((c : Thread nD τ).loc main_arg2) (ix1 v) := by
  rw [biasRow_eq]
  refine (shapeCast_apply _ Facts₀.shapeCasts_S100352_S1x100352 (ix2 (0 : Fin 1) v') (ix1 v') ?_).trans ?_
  · rw [Shape.rowMajor_val_one, Shape.rowMajor_val_two]
    show v'.val = 0 * 100352 + v'.val
    omega
  · exact pad_apply_of_inside ![0] ![352] ![0] _ _ Facts₀.pads_S100000_S100352_03520 Facts₀.h_S_ (ix1 v') (ix1 v) (fun a => match a with
      | ⟨0, _⟩ => by show v'.val = 0 + v.val * (0 + 1); omega)

/-! ### Where the blocks sit -/

/-- The printed index maps and the bias offset, decided over the 49 points. -/
theorem idx_facts : ∀ t : Fin cfg0.N, win0_3.index t (0 : Fin 2) = 0 ∧ win0_3.index t (1 : Fin 2) = t.val
    ∧ win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ k0_off1 (grid0.coords t) (0 : Fin 2) = 0 ∧ k0_off1 (grid0.coords t) (1 : Fin 2) = 2048 * t.val
    ∧ t.val < 49
    ∧ win0_3.xsize (grid0.coords t) (0 : Fin 2) = 64
    ∧ (t.val < 48 → win0_3.xsize (grid0.coords t) (1 : Fin 2) = 2048)
    ∧ (t.val = 48 → win0_3.xsize (grid0.coords t) (1 : Fin 2) = 1696) :=
  (by decide +kernel : ∀ t : Fin grid0.N, _)

/-- An entry of the filled block the transfer moves is the fetched entry (for any window). -/
theorem fill_moved {G : Pipeline.Grid} (w : Window sig G) {α : Type} (i : G.Coords) (d : w.block.Idx → α)
    (g : (w.xblock i).Idx → α) (p : w.block.Idx) (h : ∀ a, (p a).val < w.xsize i a) :
    w.fill i d g p = g fun a => ⟨(p a).val, h a⟩ := by
  have hm : w.moved i p = true := (w.moved_iff i p).mpr h
  show (if h : w.moved i p = true then _ else _) = _
  rw [dif_pos hm]

/-- The activations' block is the whole array. -/
theorem x_read (c : Dev nD) (t : Fin cfg0.N) (r : Fin 64) (k : Fin 2048) :
    (iblk m c 0 t : Vec Ideal S64x2048 .f32) (ix2 r k) = m ((c : Thread nD τ).loc main_arg0) (ix2 r k) := by
  obtain ⟨-, -, f00, f01, -⟩ := idx_facts t
  show V m c main_arg0 (((cfg0.win 0).blk t).view.emb (ix2 r k)) = _
  rw [V_main_arg0]
  exact congrArg _ (funext fun a => Fin.ext (by
    match a with
    | ⟨0, _⟩ => show win0_0.index t (0 : Fin 2) * 64 + 1 * r.val = r.val; omega
    | ⟨1, _⟩ => show win0_0.index t (1 : Fin 2) * 2048 + 1 * k.val = k.val; omega))

/-- Row j of the weight tile at point `t`, when inside the array, is row `2048 · t + j` of `W`. -/
theorem w_read (c : Dev nD) (t : Fin cfg0.N) (d : Vec Ideal S2048x2048 .f32) (j : Fin 2048) (k : Fin 2048) (v : Fin 100000)
    (hj : j.val < win0_1.xsize (grid0.coords t) 0) (hv : v.val = t.val * 2048 + j.val) :
    wtile m c t d (ix2 j k) = m ((c : Thread nD τ).loc main_arg1) (ix2 v k) := by
  obtain ⟨-, -, -, -, f10, f11, -⟩ := idx_facts t
  unfold wtile
  rw [fill_moved win0_1 (grid0.coords t) d (iblk m c 1 t) (ix2 j k) (fun a => match a with
    | ⟨0, _⟩ => hj
    | ⟨1, _⟩ => Nat.lt_of_lt_of_eq k.isLt (cuts_agree t).2.1.symm)]
  show V m c main_arg1 (((cfg0.win 1).blk t).view.emb _) = _
  rw [V_main_arg1]
  exact congrArg _ (funext fun a => Fin.ext (by
    match a with
    | ⟨0, _⟩ => show win0_1.index t (0 : Fin 2) * 2048 + 1 * j.val = v.val; omega
    | ⟨1, _⟩ => show win0_1.index t (1 : Fin 2) * 2048 + 1 * k.val = k.val; omega))

/-- The bias entry column j of tile `t` reads is `b` at `2048 · t + j`, when that is below 100000. -/
theorem b_read (c : Dev nD) (t : Fin cfg0.N) (j : Fin 2048) (v : Fin 100000) (hv : v.val = t.val * 2048 + j.val) :
    (iblk m c 2 t : Vec Ideal S1x100352 .f32) ((biasCols (grid0.coords t)).idx (ix2 (0 : Fin 1) j))
      = m ((c : Thread nD τ).loc main_arg2) (ix1 v) := by
  obtain ⟨-, -, -, -, -, -, f20, f21, o0, o1, ht, -⟩ := idx_facts t
  show V m c main_v1 (((cfg0.win 2).blk t).view.emb ((biasCols (grid0.coords t)).idx (ix2 (0 : Fin 1) j))) = _
  have e : ((cfg0.win 2).blk t).view.emb ((biasCols (grid0.coords t)).idx (ix2 (0 : Fin 1) j))
      = (ix2 (0 : Fin 1) (⟨v.val, by have := v.isLt; omega⟩ : Fin 100352) : S1x100352.Idx) := by
    funext a; apply Fin.ext
    match a with
    | ⟨0, _⟩ => show win0_2.index t (0 : Fin 2) * 1 + 1 * (k0_off1 (grid0.coords t) (0 : Fin 2) + 1 * 0) = 0; omega
    | ⟨1, _⟩ => show win0_2.index t (1 : Fin 2) * 100352 + 1 * (k0_off1 (grid0.coords t) (1 : Fin 2) + 1 * j.val) = v.val; omega
  rw [e]
  exact biasRow_apply m c v _ rfl

/-! ### What a point writes back, the cover, the final array -/

/-- The logits of the three arguments as launched. -/
abbrev launched (c : Dev nD) : S64x100000.Idx → EReal :=
  Cert.Logits.logits (m ((c : Thread nD τ).loc main_arg0)) (m ((c : Thread nD τ).loc main_arg1)) (m ((c : Thread nD τ).loc main_arg2))

/-- Point `t` writes back block `t` of the logits. -/
theorem flushed_eq (c : Dev nD) (t : Fin cfg0.N) :
    (dats m 0 c).flushed 3 t = ((cfg0.win 3).blk t).view.read (Elt Ideal) (launched m c) := by
  show (cfg0.win 3).cut (grid0.coords t) ((dats m 0 c).after 3 t) = _
  rw [after_o]
  funext y
  obtain ⟨f30, f31, -, -, -, -, -, -, -, -, ht, -⟩ := idx_facts t
  have h0 : (y 0).val < 64 := Nat.lt_of_lt_of_le (y 0).isLt (win0_3.xsize_le (grid0.coords t) 0)
  have h1' : (y 1).val < 2048 := Nat.lt_of_lt_of_le (y 1).isLt (win0_3.xsize_le (grid0.coords t) 1)
  have h1 : (y 1).val < win0_1.xsize (grid0.coords t) 0 := by rw [← (cuts_agree t).1]; exact (y 1).isLt
  have hlt : (((cfg0.win 3).blk t).view.emb y (1 : Fin 2)).val < 100000 := (((cfg0.win 3).blk t).view.emb y (1 : Fin 2)).isLt
  have hval : (((cfg0.win 3).blk t).view.emb y (1 : Fin 2)).val = win0_3.index t (1 : Fin 2) * 2048 + 1 * (y 1).val := rfl
  have hv : t.val * 2048 + (y 1).val < 100000 := by omega
  have e : win0_3.xinj (grid0.coords t) y = (ix2 (⟨(y 0).val, h0⟩ : Fin 64) (⟨(y 1).val, h1'⟩ : Fin 2048) : S64x2048.Idx) :=
    funext fun a => by match a with | ⟨0, _⟩ => rfl | ⟨1, _⟩ => rfl
  have ei : ((cfg0.win 3).blk t).view.emb y
      = (ix2 (⟨(y 0).val, h0⟩ : Fin 64) (⟨t.val * 2048 + (y 1).val, hv⟩ : Fin 100000) : S64x100000.Idx) := by
    funext a; apply Fin.ext
    match a with
    | ⟨0, _⟩ => show win0_3.index t (0 : Fin 2) * 64 + 1 * (y 0).val = (y 0).val; omega
    | ⟨1, _⟩ => show win0_3.index t (1 : Fin 2) * 2048 + 1 * (y 1).val = t.val * 2048 + (y 1).val; omega
  show tileOut (F := Ideal) _ _ _ _ (win0_3.xinj (grid0.coords t) y) = launched m c (((cfg0.win 3).blk t).view.emb y)
  rw [e, ei, tileOut_apply]
  show _ = Cert.Logits.logitAt _ _ _ _ _
  unfold Cert.Logits.logitAt
  rw [b_read m c t _ ⟨t.val * 2048 + (y 1).val, hv⟩ rfl]
  exact congrArg (· + _) (Finset.sum_congr rfl fun k _ => by
    rw [x_read, w_read m c t zeroTile _ k ⟨t.val * 2048 + (y 1).val, hv⟩ h1 rfl])

/-- An index of the result is in point `t`'s block iff each coordinate is in the block's kept range on its axis. -/
theorem mem_blk (t : Fin cfg0.N) (i : S64x100000.Idx) :
    i ∈ ((cfg0.win 3).blk t).view.set ↔ ∀ a : Fin 2, win0_3.index t a * S64x2048.size a ≤ (i a).val
      ∧ (i a).val < win0_3.index t a * S64x2048.size a + win0_3.xsize (grid0.coords t) a := by
  show i ∈ ((View.whole main_v2).slice (win0_3.rect t)).set ↔ _
  rw [View.set_slice_whole, Rect.mem_set_unit]
  exact Iff.rfl

/-- Every index of the result is in the block of the point `column / 2048`. -/
theorem covered (i : S64x100000.Idx) : ∃ t : Fin cfg0.N, (cfg0.win 3).flush t = true ∧ i ∈ ((cfg0.win 3).blk t).view.set := by
  have hi0 : (i 0).val < 64 := (i 0).isLt
  have hi1 : (i 1).val < 100000 := (i 1).isLt
  have hN : cfg0.N = 49 := N_0
  let t : Fin cfg0.N := ⟨(i 1).val / 2048, by rw [hN]; omega⟩
  have htv : t.val = (i 1).val / 2048 := rfl
  obtain ⟨f30, f31, -, -, -, -, -, -, -, -, ht, x0, x1, x1'⟩ := idx_facts t
  refine ⟨t, flush0_3 t, ?_⟩
  rw [mem_blk]
  intro a
  match a with
  | ⟨0, _⟩ =>
    show win0_3.index t (0 : Fin 2) * 64 ≤ (i 0).val ∧ (i 0).val < win0_3.index t (0 : Fin 2) * 64 + win0_3.xsize (grid0.coords t) (0 : Fin 2)
    omega
  | ⟨1, _⟩ =>
    show win0_3.index t (1 : Fin 2) * 2048 ≤ (i 1).val ∧ (i 1).val < win0_3.index t (1 : Fin 2) * 2048 + win0_3.xsize (grid0.coords t) (1 : Fin 2)
    by_cases h48 : t.val < 48
    · have := x1 h48; omega
    · have := x1' (by omega); omega

/-- The result array after the run. -/
theorem final (c : Dev nD) : (dats m 0 c).arrAt 3 cfg0.N = launched m c :=
  (dats m 0 c).arrAt_eq_of_cover 3 (launched m c) (fun t _ => flushed_eq m c t) covered

/-- The run, read: the result at the logits of the arguments, the arguments unchanged. -/
theorem run : θ_run defs (onTc (τ := τ) (main (F := Ideal))) ⟨m, fun _ => 0, ρ⟩ fun r => ∀ c : Dev nD,
      r.2.mem ((c.tc : Thread nD τ).loc main_v2) = launched m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Tile

end
-- ==== Proof.RefLogits.lean ====
/-
  The reference computes the logits.

  Its five host operations are: the transpose of `W`; the contraction of `x`'s feature axis with the transposed
  `W`'s first axis; the bias as a row; the row copied to the 64 rows; the sum. Read at an index (r, v) the
  contraction is ∑ₖ x[r, k] · Wᵀ[k, v] = ∑ₖ x[r, k] · W[v, k], and the broadcast bias is b[v]: the specification.
-/
import proofs.«111765_g34668976013719_cont_8to1_b_1141_12_alg».proof.Defs
import proofs.«111765_g34668976013719_cont_8to1_b_1141_12_alg».proof.Proof.Gen.ReferenceIdeal
import proofs.«111765_g34668976013719_cont_8to1_b_1141_12_alg».proof.Proof.Gen.ReferenceIdeal.Run
import proofs.«111765_g34668976013719_cont_8to1_b_1141_12_alg».proof.Proof.Gen.ReferenceIdeal.Read
import proofs.«111765_g34668976013719_cont_8to1_b_1141_12_alg».proof.Proof.Spec

noncomputable section

namespace Cert.ReferenceIdeal.RefLogits

open Cert.ReferenceIdeal Cert.ReferenceIdeal.Gen Cert.ReferenceIdeal.Read
open Idealize.ShloMosaic Idealize.ShloMosaic.ValueIdx

/-- The last stage of the reference, as a function of the three arguments, is `logits`. -/
theorem stage_is_logits (x : (⟨S64x2048, .f32⟩ : BufTy).Contents (Elt Ideal)) (W : (⟨S100000x2048, .f32⟩ : BufTy).Contents (Elt Ideal))
    (b : (⟨S100000, .f32⟩ : BufTy).Contents (Elt Ideal)) :
    val_main_v4 (F := Ideal) x W b = Cert.Logits.logits x W b := by
  funext i
  rw [val_main_v4_apply, val_main_v1_apply, val_main_v3_apply, val_main_v2_apply]
  simp only [val_main_v0_apply]
  -- the operands' indices at (r, v) and k: (r, k) of the activations, (v, k) of the weights, v of the bias
  have hl : ∀ k : Fin 2048, lidx_main_v1 i k = ix2 (⟨(i 0).val, (i 0).isLt⟩ : Fin 64) k := fun k =>
    funext fun a => by match a with | ⟨0, _⟩ => rfl | ⟨1, _⟩ => rfl
  have hr : ∀ k : Fin 2048, idx_main_v0 (ridx_main_v1 i k) = ix2 (⟨(i 1).val, (i 1).isLt⟩ : Fin 100000) k := fun k =>
    funext fun a => by match a with | ⟨0, _⟩ => rfl | ⟨1, _⟩ => rfl
  have hb : idx_main_v2 (idx_main_v3 i) = ix1 (⟨(i 1).val, (i 1).isLt⟩ : Fin 100000) :=
    funext fun a => by match a with | ⟨0, _⟩ => rfl
  simp only [hl, hr, hb]
  rfl

end Cert.ReferenceIdeal.RefLogits

end
-- ==== Proof.lean ====
/-
  A tiled linear head computes the logits of the plain one.

  The kernel walks the 100000 vocabulary rows of `W` in 49 tiles of 2048 (the last tile holds 1696 rows of the array),
  keeps the activations `x` (64 × 2048) and the bias, padded with zeros to 49 · 2048 entries, resident, and at tile `t`
  writes columns `2048 · t …` of the result with `x · tileᵀ + bias columns`. The reference is `x · Wᵀ + b`.

  Over the extended reals both are  logits[r, v] = (∑ₖ x[r, k] · W[v, k]) + b[v]  (Proof/Spec.lean): the matrix unit's
  product into a zero accumulator and the host's contraction are the same finite sum, a sum that does not depend on the
  order of its terms, and nothing else is computed — no law that needs finiteness is used, so the precondition is never
  opened. What needs care is the last tile: its rows past the array's end hold words nothing names. The columns of the
  output computed from them lie past the result's end and are never written back, and a kept column j reads row j of the
  tile only (Proof/TileValue.lean, Proof/TileRun.lean), so the 49 write-backs piece together `logits`
  (Proof/LogitsOfTiles.lean); the reference's five operations read at an index are `logits` too (Proof/RefLogits.lean).

  At the word level the product is a function of the whole tile, so there nothing is said of the result: the frame needs
  only that the body runs from any contents and that the pipeline writes no input (Proof/TileFrame.lean).
  The idealization rewrote no operation, so `preserves` has nothing to state.
-/
import proofs.«111765_g34668976013719_cont_8to1_b_1141_12_alg».proof.Defs
import proofs.«111765_g34668976013719_cont_8to1_b_1141_12_alg».proof.Proof.Gen.Kernel
import proofs.«111765_g34668976013719_cont_8to1_b_1141_12_alg».proof.Proof.Gen.KernelIdeal
import proofs.«111765_g34668976013719_cont_8to1_b_1141_12_alg».proof.Proof.Gen.ReferenceIdeal
import proofs.«111765_g34668976013719_cont_8to1_b_1141_12_alg».proof.Proof.Gen.Pre_finite_inputs
import proofs.«111765_g34668976013719_cont_8to1_b_1141_12_alg».proof.Proof.Gen.ReferenceIdeal.Run
import proofs.«111765_g34668976013719_cont_8to1_b_1141_12_alg».proof.Proof.Gen.ReferenceIdeal.Read
import proofs.«111765_g34668976013719_cont_8to1_b_1141_12_alg».proof.Proof.TileFrame
import proofs.«111765_g34668976013719_cont_8to1_b_1141_12_alg».proof.Proof.LogitsOfTiles
import proofs.«111765_g34668976013719_cont_8to1_b_1141_12_alg».proof.Proof.RefLogits
import Idealize.ShloMosaic.Adequacy
import Idealize.ShloMosaic.Init

noncomputable section

namespace Cert.Proof

open Idealize.ShloMosaic Idealize.SL.Sem

/-- The word-level program runs and leaves its arguments alone. -/
theorem frame_words : Cert.frame_Kernel := fun m ρ _ => Cert.Kernel.Tile.frame (F := Bits) m ρ

/-- So does the idealized one (its run names every array; the frame reads three of them). -/
theorem frame_ideal : Cert.frame_KernelIdeal := fun m ρ _ => Cert.KernelIdeal.Tile.frame m ρ

/-- The reference is five host operations: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on `x`, `W`, `b` both programs end with the result at `logits x W b`. -/
theorem algebraic : Cert.algebraic_KernelIdeal_ReferenceIdeal := by
  intro m ρ m' ρ' _ hagree
  refine ⟨fun c => Cert.KernelIdeal.Tile.launched m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefLogits.stage_is_logits,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_words, frame_ideal, frame_ref, preserves, algebraic⟩

end Cert.Proof

end
